-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S32x1 .f32) (main_arg9 : FVec F S1 .f32) (main_arg10 : FVec F S1 .f32) (main_arg11 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S32 .f32) (main_arg6 : FVec F S32x32 .f32) (main_arg7 : FVec F S32 .f32) (main_arg8 : FVec F S32x1 .f32) (main_arg9 : FVec F S1 .f32) (main_arg10 : FVec F S1 .f32) (main_arg11 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x32 .f32) (main_arg1 : IVec S2x3200000 32) (main_arg2 : FVec F S64x32 .f32) (main_arg3 : FVec F S32 .f32) (main_arg4 : FVec F S32x32 .f32) (main_arg5 : FVec F S32 .f32) (main_arg6 : FVec F S32x32 .f32) (main_arg7 : FVec F S32 .f32) (main_arg8 : FVec F S32x1 .f32) (main_arg9 : FVec F S1 .f32) (main_arg10 : FVec F S1 .f32) (main_arg11 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_arg10 main_arg11 main_v13 main_v16
-- ==== Kernel.lean ====
abbrev S100000x32 : Shape := ⟨2, ![100000, 32]⟩
abbrev S2x3200000 : Shape := ⟨2, ![2, 3200000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S1x32 : Shape := ⟨2, ![1, 32]⟩
abbrev S1x1 : Shape := ⟨2, ![1, 1]⟩
abbrev S25600x32 : Shape := ⟨2, ![25600, 32]⟩
abbrev S25600x1 : Shape := ⟨2, ![25600, 1]⟩
abbrev S25600 : Shape := ⟨1, ![25600]⟩

abbrev nBuf : Space → Nat
  | .hbm => 44
  | .vmem => 17
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S100000x32, .bf16⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .i32⟩
  | .hbm, ⟨18, _⟩ => ⟨S3200000, .i32⟩
  | .hbm, ⟨19, _⟩ => ⟨S3200000, .i1⟩
  | .hbm, ⟨20, _⟩ => ⟨S_, .i32⟩
  | .hbm, ⟨21, _⟩ => ⟨S3200000, .i32⟩
  | .hbm, ⟨22, _⟩ => ⟨S3200000, .i32⟩
  | .hbm, ⟨23, _⟩ => ⟨S3200000, .i32⟩
  | .hbm, ⟨24, _⟩ => ⟨S3200000x1, .i32⟩
  | .hbm, ⟨25, _⟩ => ⟨S3200000x32, .bf16⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000x32, .bf16⟩
  | .hbm, ⟨35, _⟩ => ⟨S32x32, .f32⟩
  | .hbm, ⟨36, _⟩ => ⟨S32x32, .f32⟩
  | .hbm, ⟨37, _⟩ => ⟨S1x32, .f32⟩
  | .hbm, ⟨38, _⟩ => ⟨S1x32, .f32⟩
  | .hbm, ⟨39, _⟩ => ⟨S1x32, .f32⟩
  | .hbm, ⟨40, _⟩ => ⟨S1x1, .f32⟩
  | .hbm, ⟨41, _⟩ => ⟨S1x1, .f32⟩
  | .hbm, ⟨42, _⟩ => ⟨S1x1, .f32⟩
  | .hbm, ⟨43, _⟩ => ⟨S3200000x1, .f32⟩
  | .local _ .vmem, ⟨0, _⟩ => ⟨S25600x32, .bf16⟩
  | .local _ .vmem, ⟨1, _⟩ => ⟨S25600x32, .bf16⟩
  | .local _ .vmem, ⟨2, _⟩ => ⟨S25600x32, .bf16⟩
  | .local _ .vmem, ⟨3, _⟩ => ⟨S25600x32, .bf16⟩
  | .local _ .vmem, ⟨4, _⟩ => ⟨S32x32, .f32⟩
  | .local _ .vmem, ⟨5, _⟩ => ⟨S32x32, .f32⟩
  | .local _ .vmem, ⟨6, _⟩ => ⟨S1x32, .f32⟩
  | .local _ .vmem, ⟨7, _⟩ => ⟨S32x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S32x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S25600x1, .f32⟩
  | .local _ .vmem, ⟨16, _⟩ => ⟨S25600x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25600x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25600x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S25600x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S64x32_S32x32_0_0 : S64x32.Slices ![0, 0] S32x32
  slices_S64x32_S32x32_32_0 : S64x32.Slices ![32, 0] S32x32
  shapeCasts_S32_S1x32 : S32.ShapeCasts S1x32
  shapeCasts_S1_S1x1 : S1.ShapeCasts S1x1
  inb_S25600x32_S25600x32_0_0 : ∀ a, (![0, 0] : Fin 2 → Nat) a + S25600x32.size a ≤ S25600x32.size a
  h_S25600x32 : 0 < S25600x32.numel
  shapeCasts_S25600x32_S25600x32 : S25600x32.ShapeCasts S25600x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S25600x32 : S1x32.Broadcasts S25600x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S25600x1 : S1x1.Broadcasts S25600x1
  reduces_S25600x1_S25600 : S25600x1.Reduces [1] S25600
  shapeCasts_S25600_S25600x1 : S25600.ShapeCasts S25600x1
  inb_S25600x1_S25600x1_0_0 : ∀ a, (![0, 0] : Fin 2 → Nat) a + S25600x1.size a ≤ S25600x1.size a
  h_S25600x1 : 0 < S25600x1.numel
  gather_S100000x32_S3200000x1_S3200000x32_1_0_n_n_0_1_132_wf : GatherDims.WF S100000x32 S3200000x1 S3200000x32 [1] [0] [] [0] [] 1 ![1, 32]
  dot_S25600x32_S32x32_S25600x32_1_0_0_1_n_n_wf : DotDims.WF S25600x32 S32x32 S25600x32 [1] [0] [0] [1] [] []
  dot_S25600x32_S32x1_S25600x1_1_0_0_1_n_n_wf : DotDims.WF S25600x32 S32x1 S25600x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25600x32.size a ≤ S3200000x32.size a
  hwx0_0 : ∀ i : grid0.Coords, EltTy.bits .bf16 = 32 ∨ (Rect.block (s := S3200000x32) S25600x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25600x32.size a ≤ S3200000x32.size a
  hwx0_1 : ∀ i : grid0.Coords, EltTy.bits .bf16 = 32 ∨ (Rect.block (s := S3200000x32) S25600x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x1.size a ≤ S32x1.size a
  hwx0_9 : ∀ i : grid0.Coords, EltTy.bits .f32 = 32 ∨ (Rect.block (s := S32x1) S32x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S25600x1.size a ≤ S3200000x1.size a
  hwx0_13 : ∀ i : grid0.Coords, EltTy.bits .f32 = 32 ∨ (Rect.block (s := S3200000x1) S25600x1.size (cc0_transform_13 i) (hinb0_13 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S25600x32_S32x32_S25600x32_1_0_0_1_n_n : DotDims S25600x32 S32x32 S25600x32 where
  lhsContracting := [1]
  rhsContracting := [0]
  lhsNonContracting := [0]
  rhsNonContracting := [1]
  lhsBatch := []
  rhsBatch := []
  wf := dot_S25600x32_S32x32_S25600x32_1_0_0_1_n_n_wf
def dot_S25600x32_S32x1_S25600x1_1_0_0_1_n_n : DotDims S25600x32 S32x1 S25600x1 where
  lhsContracting := [1]
  rhsContracting := [0]
  lhsNonContracting := [0]
  rhsNonContracting := [1]
  lhsBatch := []
  rhsBatch := []
  wf := dot_S25600x32_S32x1_S25600x1_1_0_0_1_n_n_wf

abbrev win0_0 : Pipeline.Window sig grid0 :=
  Pipeline.Window.ofSpec (Memref.whole main_v11) S25600x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S25600x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S32x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S25600x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S64x32 : Shape := ⟨2, ![64, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S3200000x64 : Shape := ⟨2, ![3200000, 64]⟩
abbrev S1x32 : Shape := ⟨2, ![1, 32]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S64x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x32, .f32⟩
  | .hbm, ⟨23, _⟩ => ⟨S1x3200000, .i32⟩
  | .hbm, ⟨24, _⟩ => ⟨S3200000, .i32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000x32, .f32⟩
  | .hbm, ⟨34, _⟩ => ⟨S3200000x64, .f32⟩
  | .hbm, ⟨35, _⟩ => ⟨S3200000x32, .f32⟩
  | .hbm, ⟨36, _⟩ => ⟨S1x32, .f32⟩
  | .hbm, ⟨37, _⟩ => ⟨S3200000x32, .f32⟩
  | .hbm, ⟨38, _⟩ => ⟨S3200000x32, .f32⟩
  | .hbm, ⟨39, _⟩ => ⟨S_, .f32⟩
  | .hbm, ⟨40, _⟩ => ⟨S3200000x32, .f32⟩
  | .hbm, ⟨41, _⟩ => ⟨S3200000x32, .f32⟩
  | .hbm, ⟨42, _⟩ => ⟨S3200000x32, .f32⟩
  | .hbm, ⟨43, _⟩ => ⟨S1x32, .f32⟩
  | .hbm, ⟨44, _⟩ => ⟨S3200000x32, .f32⟩
  | .hbm, ⟨45, _⟩ => ⟨S3200000x32, .f32⟩
  | .hbm, ⟨46, _⟩ => ⟨S_, .f32⟩
  | .hbm, ⟨47, _⟩ => ⟨S3200000x32, .f32⟩
  | .hbm, ⟨48, _⟩ => ⟨S3200000x32, .f32⟩
  | .hbm, ⟨49, _⟩ => ⟨S3200000x32, .f32⟩
  | .hbm, ⟨50, _⟩ => ⟨S1x32, .f32⟩
  | .hbm, ⟨51, _⟩ => ⟨S3200000x32, .f32⟩
  | .hbm, ⟨52, _⟩ => ⟨S3200000x32, .f32⟩
  | .hbm, ⟨53, _⟩ => ⟨S_, .f32⟩
  | .hbm, ⟨54, _⟩ => ⟨S3200000x32, .f32⟩
  | .hbm, ⟨55, _⟩ => ⟨S3200000x32, .f32⟩
  | .hbm, ⟨56, _⟩ => ⟨S3200000x1, .f32⟩
  | .hbm, ⟨57, _⟩ => ⟨S1x1, .f32⟩
  | .hbm, ⟨58, _⟩ => ⟨S3200000x1, .f32⟩
  | .hbm, ⟨59, _⟩ => ⟨S3200000x1, .f32⟩
  | .hbm, ⟨60, _⟩ => ⟨S_, .f32⟩
  | .hbm, ⟨61, _⟩ => ⟨S3200000, .f32⟩
  | .hbm, ⟨62, _⟩ => ⟨S3200000x1, .f32⟩
  | .hbm, ⟨63, _⟩ => ⟨S_, .f32⟩
  | .hbm, ⟨64, _⟩ => ⟨S3200000x1, .f32⟩
  | .hbm, ⟨65, _⟩ => ⟨S3200000x1, .f32⟩
  | .hbm, ⟨66, _⟩ => ⟨S3200000x1, .f32⟩
  | .hbm, ⟨67, _⟩ => ⟨S3200000x1, .f32⟩
  | .hbm, ⟨68, _⟩ => ⟨S_, .f32⟩
  | .hbm, ⟨69, _⟩ => ⟨S3200000, .f32⟩
  | .hbm, ⟨70, _⟩ => ⟨S3200000x1, .f32⟩
  | .hbm, ⟨71, _⟩ => ⟨S_, .f32⟩
  | .hbm, ⟨72, _⟩ => ⟨S3200000x1, .f32⟩
  | .hbm, ⟨73, _⟩ => ⟨S3200000x1, .f32⟩
  | .hbm, ⟨74, _⟩ => ⟨S3200000x1, .f32⟩
  | .hbm, ⟨75, _⟩ => ⟨S_, .f32⟩
  | .hbm, ⟨76, _⟩ => ⟨S3200000x1, .f32⟩
  | .hbm, ⟨77, _⟩ => ⟨S3200000x1, .f32⟩
  | .hbm, ⟨78, _⟩ => ⟨S3200000x1, .f32⟩
  | .hbm, ⟨79, _⟩ => ⟨S3200000x1, .f32⟩
  | .hbm, ⟨80, _⟩ => ⟨S1x1, .f32⟩
  | .hbm, ⟨81, _⟩ => ⟨S3200000x1, .f32⟩
  | .hbm, ⟨82, _⟩ => ⟨S3200000x1, .f32⟩
  | .hbm, ⟨83, _⟩ => ⟨S1x1, .f32⟩
  | .hbm, ⟨84, _⟩ => ⟨S3200000x1, .f32⟩
  | .hbm, ⟨85, _⟩ => ⟨S3200000x1, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_cst : Ref sig .tc := ⟨.hbm, 39, rfl⟩
abbrev main_call0_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call1_cst : Ref sig .tc := ⟨.hbm, 46, rfl⟩
abbrev main_call1_v0 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call2_cst : Ref sig .tc := ⟨.hbm, 53, rfl⟩
abbrev main_call2_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  concatenates_S3200000x32_S3200000x32_S3200000x64_d1 : Shape.Concatenates [S3200000x32, S3200000x32] S3200000x64 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S_S3200000x1 : S_.BroadcastsInDim S3200000x1 (![] : Fin 0 → Fin S3200000x1.rank)
  gather_S100000x32_S3200000x1_S3200000x32_1_0_n_n_0_1_132_wf : GatherDims.WF S100000x32 S3200000x1 S3200000x32 [1] [0] [] [0] [] 1 ![1, 32]
  dot_S3200000x64_S64x32_S3200000x32_1_0_0_1_n_n_wf : DotDims.WF S3200000x64 S64x32 S3200000x32 [1] [0] [0] [1] [] []
  dot_S3200000x32_S32x32_S3200000x32_1_0_0_1_n_n_wf : DotDims.WF S3200000x32 S32x32 S3200000x32 [1] [0] [0] [1] [] []
  dot_S3200000x32_S32x1_S3200000x1_1_0_0_1_n_n_wf : DotDims.WF S3200000x32 S32x1 S3200000x1 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def dot_S3200000x64_S64x32_S3200000x32_1_0_0_1_n_n : DotDims S3200000x64 S64x32 S3200000x32 where
  lhsContracting := [1]
  rhsContracting := [0]
  lhsNonContracting := [0]
  rhsNonContracting := [1]
  lhsBatch := []
  rhsBatch := []
  wf := dot_S3200000x64_S64x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def dot_S3200000x32_S32x1_S3200000x1_1_0_0_1_n_n : DotDims S3200000x32 S32x1 S3200000x1 where
  lhsContracting := [1]
  rhsContracting := [0]
  lhsNonContracting := [0]
  rhsNonContracting := [1]
  lhsBatch := []
  rhsBatch := []
  wf := dot_S3200000x32_S32x1_S3200000x1_1_0_0_1_n_n_wf

class Facts : Prop extends Facts₀ where

variable [Facts]
-- ==== Proof.EdgeNet.lean ====
/-
  One edge's value, as a function of its two endpoint rows and the weights.

  Both programs compute, for every edge, a four-layer perceptron of the concatenated endpoint
  feature rows followed by a layer normalisation over an axis of extent one:
    h₁ = max (a·W₁ᵃ + b·W₁ᵇ + β₁) 0,  h₂ = max (h₁·W₂ + β₂) 0,  h₃ = max (h₂·W₃ + β₃) 0,
    y  = h₃·W₄ + β₄,   out = (y − y/1) · rsqrt (((y − y/1)·(y − y/1))/1 + ε) · γ + δ
  on the extended reals.  The only place the two differ is the first layer: one side multiplies
  the joined row of 64 entries with the 64 × 32 matrix, the other adds the products of the two
  halves.  A sum over 64 indices is the sum over the first 32 plus the sum over the last 32 in
  every commutative monoid, so no finiteness is needed anywhere.
-/
import Idealize.ShloMosaic.PureOps.Ideal
import Idealize.ShloMosaic.PureOps.Ideal.Laws
import Mathlib.Algebra.BigOperators.Fin

noncomputable section

open scoped BigOperators

namespace Cert.EdgeNet

open Idealize.ShloMosaic

/-- The literal `1.0` both programs divide the one-element sums by, and the literal `ε` under the root. -/
abbrev one32 : EReal := Ideal.ofBits .f32 0x3F800000#32
abbrev eps32 : EReal := Ideal.ofBits .f32 0x3727C5AC#32

/-- First hidden layer of one edge: the two endpoint rows against the two halves of the first matrix. -/
def hid1 (a b : Fin 32 → EReal) (Wa Wb : Fin 32 → Fin 32 → EReal) (β : Fin 32 → EReal) (j : Fin 32) : EReal :=
  max (((∑ k : Fin 32, a k * Wa k j) + ∑ k : Fin 32, b k * Wb k j) + β j) 0

/-- A later hidden layer of one edge. -/
def hidN (h : Fin 32 → EReal) (W : Fin 32 → Fin 32 → EReal) (β : Fin 32 → EReal) (j : Fin 32) : EReal :=
  max ((∑ k : Fin 32, h k * W k j) + β j) 0

/-- The last, linear layer: one output per edge. -/
def lin4 (h : Fin 32 → EReal) (W : Fin 32 → EReal) (β : EReal) : EReal :=
  (∑ k : Fin 32, h k * W k) + β

/-- Layer normalisation over an axis of extent one, exactly as both programs spell it. -/
def lnorm (y γ δ : EReal) : EReal :=
  ((y - Ideal.div y one32) * Ideal.rsqrt (Ideal.div ((y - Ideal.div y one32) * (y - Ideal.div y one32)) one32 + eps32)) * γ + δ

/-- One edge's output from its two endpoint rows. -/
def edgeOut (a b : Fin 32 → EReal) (Wa Wb : Fin 32 → Fin 32 → EReal) (β₁ : Fin 32 → EReal)
    (W₂ : Fin 32 → Fin 32 → EReal) (β₂ : Fin 32 → EReal) (W₃ : Fin 32 → Fin 32 → EReal) (β₃ : Fin 32 → EReal)
    (W₄ : Fin 32 → EReal) (β₄ γ δ : EReal) : EReal :=
  lnorm (lin4 (hidN (hidN (hid1 a b Wa Wb β₁) W₂ β₂) W₃ β₃) W₄ β₄) γ δ

/-- A sum over 64 indices is the sum over the first 32 plus the sum over the last 32. -/
theorem sum_fin64_halves (f : Fin 64 → EReal) :
    ∑ k : Fin 64, f k = (∑ k : Fin 32, f ⟨k.val, by omega⟩) + ∑ k : Fin 32, f ⟨32 + k.val, by omega⟩ := by
  have h := Fin.sum_univ_add (M := EReal) (a := 32) (b := 32) f
  exact h

/-- The edge function of equal arguments. -/
theorem edgeOut_congr {a a' b b' : Fin 32 → EReal} {Wa Wa' Wb Wb' : Fin 32 → Fin 32 → EReal} {β₁ β₁' : Fin 32 → EReal}
    {W₂ W₂' : Fin 32 → Fin 32 → EReal} {β₂ β₂' : Fin 32 → EReal} {W₃ W₃' : Fin 32 → Fin 32 → EReal} {β₃ β₃' : Fin 32 → EReal}
    {W₄ W₄' : Fin 32 → EReal} {β₄ β₄' γ γ' δ δ' : EReal}
    (h0 : a = a') (h1 : b = b') (h2 : Wa = Wa') (h3 : Wb = Wb') (h4 : β₁ = β₁') (h5 : W₂ = W₂') (h6 : β₂ = β₂')
    (h7 : W₃ = W₃') (h8 : β₃ = β₃') (h9 : W₄ = W₄') (h10 : β₄ = β₄') (h11 : γ = γ') (h12 : δ = δ') :
    edgeOut a b Wa Wb β₁ W₂ β₂ W₃ β₃ W₄ β₄ γ δ = edgeOut a' b' Wa' Wb' β₁' W₂' β₂' W₃' β₃' W₄' β₄' γ' δ' := by
  rw [h0, h1, h2, h3, h4, h5, h6, h7, h8, h9, h10, h11, h12]

end Cert.EdgeNet

end
-- ==== Proof.KernelRow.lean ====
/-
  The kernel body's stored value, read at one row of the block.

  The body multiplies the two blocks of endpoint rows with the two halves of the first matrix, adds
  them and the bias, clamps at zero, repeats with two more 32 × 32 layers, applies the 32 × 1 layer
  and normalises over the axis of extent one.  Read at row `r` of the block, every matrix product
  is a sum over the 32 contraction coordinates, every bias broadcast reads the bias' one row, the
  changes of float format are the identity on the extended reals, and the two sums over the axis of
  extent one are their single terms.
-/
import proofs.«128229_j45509473468804_1_alg».proof.Proof.Gen.KernelIdeal.Skeleton
import proofs.«128229_j45509473468804_1_alg».proof.Proof.EdgeNet
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.EdgeNet

/-! ## The two matrix products at an index -/

theorem lhsA_0 (i : S25600x32.Idx) (q : dot_S25600x32_S32x32_S25600x32_1_0_0_1_n_n.contr.Idx) :
    (dot_S25600x32_S32x32_S25600x32_1_0_0_1_n_n.lhsIdx i q 0).val = (i 0).val := by
  unfold DotDims.lhsIdx
  rw [dif_neg (show ¬(0 : Fin S25600x32.rank) ∈ dot_S25600x32_S32x32_S25600x32_1_0_0_1_n_n.lhsBatch by decide), dif_pos (show (0 : Fin S25600x32.rank) ∈ dot_S25600x32_S32x32_S25600x32_1_0_0_1_n_n.lhsNonContracting by decide)]
  rfl
theorem lhsA_1 (i : S25600x32.Idx) (q : dot_S25600x32_S32x32_S25600x32_1_0_0_1_n_n.contr.Idx) :
    (dot_S25600x32_S32x32_S25600x32_1_0_0_1_n_n.lhsIdx i q 1).val = (q ⟨0, by decide⟩).val :=
  dot_S25600x32_S32x32_S25600x32_1_0_0_1_n_n.lhsIdx_val_of_single rfl i q
theorem rhsA_0 (i : S25600x32.Idx) (q : dot_S25600x32_S32x32_S25600x32_1_0_0_1_n_n.contr.Idx) :
    (dot_S25600x32_S32x32_S25600x32_1_0_0_1_n_n.rhsIdx i q 0).val = (q ⟨0, by decide⟩).val :=
  dot_S25600x32_S32x32_S25600x32_1_0_0_1_n_n.rhsIdx_val_of_single rfl i q
theorem rhsA_1 (i : S25600x32.Idx) (q : dot_S25600x32_S32x32_S25600x32_1_0_0_1_n_n.contr.Idx) :
    (dot_S25600x32_S32x32_S25600x32_1_0_0_1_n_n.rhsIdx i q 1).val = (i 1).val := by
  unfold DotDims.rhsIdx
  rw [dif_neg (show ¬(1 : Fin S32x32.rank) ∈ dot_S25600x32_S32x32_S25600x32_1_0_0_1_n_n.rhsBatch by decide), dif_pos (show (1 : Fin S32x32.rank) ∈ dot_S25600x32_S32x32_S25600x32_1_0_0_1_n_n.rhsNonContracting by decide)]
  rfl

/-- A block of rows times a 32 × 32 matrix into the zero accumulator: entry `(p, q)` is the sum over
    the 32 contraction coordinates of the row's entries times the matrix' column. -/
theorem mm32_apply {φ₁ φ₂ : FTy} (l : FVec Ideal S25600x32 φ₁) (r : FVec Ideal S32x32 φ₂) (p : Fin 25600) (q : Fin 32) :
    matmul dot_S25600x32_S32x32_S25600x32_1_0_0_1_n_n none l r (constant S25600x32 .f32 0x00000000#32) (ix2 p q)
      = ∑ k : Fin 32, l (ix2 p k) * r (ix2 k q) := by
  simp only [matmul]
  rw [Ideal.matmul_constant_zero_apply, ← Equiv.sum_comp (contrEquiv1 dot_S25600x32_S32x32_S25600x32_1_0_0_1_n_n 32 rfl rfl).symm]
  refine Finset.sum_congr rfl fun k _ => ?_
  have hk := contrEquiv1_symm_val dot_S25600x32_S32x32_S25600x32_1_0_0_1_n_n 32 rfl rfl k
  have el : dot_S25600x32_S32x32_S25600x32_1_0_0_1_n_n.lhsIdx (ix2 p q) ((contrEquiv1 dot_S25600x32_S32x32_S25600x32_1_0_0_1_n_n 32 rfl rfl).symm k) = ix2 p k := funext fun a => Fin.ext (by
    match a with
    | ⟨0, _⟩ => exact lhsA_0 _ _
    | ⟨1, _⟩ => exact (lhsA_1 _ _).trans hk)
  have er : dot_S25600x32_S32x32_S25600x32_1_0_0_1_n_n.rhsIdx (ix2 p q) ((contrEquiv1 dot_S25600x32_S32x32_S25600x32_1_0_0_1_n_n 32 rfl rfl).symm k) = ix2 k q := funext fun a => Fin.ext (by
    match a with
    | ⟨0, _⟩ => exact (rhsA_0 _ _).trans hk
    | ⟨1, _⟩ => exact rhsA_1 _ _)
  rw [el, er]

theorem lhsB_0 (i : S25600x1.Idx) (q : dot_S25600x32_S32x1_S25600x1_1_0_0_1_n_n.contr.Idx) :
    (dot_S25600x32_S32x1_S25600x1_1_0_0_1_n_n.lhsIdx i q 0).val = (i 0).val := by
  unfold DotDims.lhsIdx
  rw [dif_neg (show ¬(0 : Fin S25600x32.rank) ∈ dot_S25600x32_S32x1_S25600x1_1_0_0_1_n_n.lhsBatch by decide), dif_pos (show (0 : Fin S25600x32.rank) ∈ dot_S25600x32_S32x1_S25600x1_1_0_0_1_n_n.lhsNonContracting by decide)]
  rfl
theorem lhsB_1 (i : S25600x1.Idx) (q : dot_S25600x32_S32x1_S25600x1_1_0_0_1_n_n.contr.Idx) :
    (dot_S25600x32_S32x1_S25600x1_1_0_0_1_n_n.lhsIdx i q 1).val = (q ⟨0, by decide⟩).val :=
  dot_S25600x32_S32x1_S25600x1_1_0_0_1_n_n.lhsIdx_val_of_single rfl i q
theorem rhsB_0 (i : S25600x1.Idx) (q : dot_S25600x32_S32x1_S25600x1_1_0_0_1_n_n.contr.Idx) :
    (dot_S25600x32_S32x1_S25600x1_1_0_0_1_n_n.rhsIdx i q 0).val = (q ⟨0, by decide⟩).val :=
  dot_S25600x32_S32x1_S25600x1_1_0_0_1_n_n.rhsIdx_val_of_single rfl i q
theorem rhsB_1 (i : S25600x1.Idx) (q : dot_S25600x32_S32x1_S25600x1_1_0_0_1_n_n.contr.Idx) :
    (dot_S25600x32_S32x1_S25600x1_1_0_0_1_n_n.rhsIdx i q 1).val = (i 1).val := by
  unfold DotDims.rhsIdx
  rw [dif_neg (show ¬(1 : Fin S32x1.rank) ∈ dot_S25600x32_S32x1_S25600x1_1_0_0_1_n_n.rhsBatch by decide), dif_pos (show (1 : Fin S32x1.rank) ∈ dot_S25600x32_S32x1_S25600x1_1_0_0_1_n_n.rhsNonContracting by decide)]
  rfl

/-- The same for the 32 × 1 matrix of the last layer. -/
theorem mm1_apply {φ₁ φ₂ : FTy} (l : FVec Ideal S25600x32 φ₁) (r : FVec Ideal S32x1 φ₂) (p : Fin 25600) (q : Fin 1) :
    matmul dot_S25600x32_S32x1_S25600x1_1_0_0_1_n_n none l r (constant S25600x1 .f32 0x00000000#32) (ix2 p q)
      = ∑ k : Fin 32, l (ix2 p k) * r (ix2 k q) := by
  simp only [matmul]
  rw [Ideal.matmul_constant_zero_apply, ← Equiv.sum_comp (contrEquiv1 dot_S25600x32_S32x1_S25600x1_1_0_0_1_n_n 32 rfl rfl).symm]
  refine Finset.sum_congr rfl fun k _ => ?_
  have hk := contrEquiv1_symm_val dot_S25600x32_S32x1_S25600x1_1_0_0_1_n_n 32 rfl rfl k
  have el : dot_S25600x32_S32x1_S25600x1_1_0_0_1_n_n.lhsIdx (ix2 p q) ((contrEquiv1 dot_S25600x32_S32x1_S25600x1_1_0_0_1_n_n 32 rfl rfl).symm k) = ix2 p k := funext fun a => Fin.ext (by
    match a with
    | ⟨0, _⟩ => exact lhsB_0 _ _
    | ⟨1, _⟩ => exact (lhsB_1 _ _).trans hk)
  have er : dot_S25600x32_S32x1_S25600x1_1_0_0_1_n_n.rhsIdx (ix2 p q) ((contrEquiv1 dot_S25600x32_S32x1_S25600x1_1_0_0_1_n_n 32 rfl rfl).symm k) = ix2 k q := funext fun a => Fin.ext (by
    match a with
    | ⟨0, _⟩ => exact (rhsB_0 _ _).trans hk
    | ⟨1, _⟩ => exact rhsB_1 _ _)
  rw [el, er]

/-! ## The sum over the axis of extent one, put back as a column -/

/-- Summing a one-column block along its columns and restoring the column gives the block back. -/
theorem colsum_apply (v : FVec Ideal S25600x1 .f32) (hφ : FTy.f32 = FTy.f32 ∨ FTy.f32 = FTy.bf16) (hacc : (0x00000000#32 : BitVec 32) = 0x00000000#32) (p : Fin 25600) :
    shapeCast S25600x1 (multiReduction .add [1] S25600 v 0x00000000#32 reduces_S25600x1_S25600 hφ hacc) shapeCasts_S25600_S25600x1 (ix2 p (0 : Fin 1))
      = v (ix2 p (0 : Fin 1)) := by
  refine (shapeCast_apply _ shapeCasts_S25600_S25600x1 (ix2 p (0 : Fin 1)) (ix1 p) ?_).trans ?_
  · rw [Shape.rowMajor_val_two, Shape.rowMajor_val_one]
    show p.val = p.val * 1 + 0
    omega
  · refine (Ideal.multiReduction_add_single v 0x00000000#32 reduces_S25600x1_S25600 hφ hacc (ix1 p)).trans ?_
    show ∑ k : Fin 1, v (reduces_S25600x1_S25600.lift (ix1 p) k) = _
    rw [Fin.sum_univ_one]
    refine congrArg v (funext fun a => ?_)
    match a with
    | ⟨0, _⟩ => rfl
    | ⟨1, _⟩ => rfl

/-! ## The stored value at a row -/

/-- A scalar literal on the extended reals is the number its word denotes. -/
theorem scalar_ofBits_f32 (b : BitVec 32) : (Scalar.ofBits .f32 b : Ideal .f32) = Ideal.ofBits .f32 b := rfl

/-- The reciprocal square root of a vector, entry by entry. -/
theorem rsqrt_apply {s : Shape} {φ : FTy} (x : FVec Ideal s φ) (i : s.Idx) : rsqrt x i = Ideal.rsqrt (x i) := rfl

/-- Row `r` of what the body stores is the edge function of row `r` of the two endpoint blocks and of the
    weight blocks. -/
theorem stored_row (v0 v2 : Vec Ideal S25600x32 .bf16) (v4 v7 : Vec Ideal S32x32 .f32) (v10 : Vec Ideal S1x32 .f32)
    (v20 : Vec Ideal S32x32 .f32) (v22 : Vec Ideal S1x32 .f32) (v30 : Vec Ideal S32x32 .f32) (v32 : Vec Ideal S1x32 .f32)
    (v40 : Vec Ideal S32x1 .f32) (v42 v57 v59 : Vec Ideal S1x1 .f32) (r : Fin 25600) :
    k0_pay1 (F := Ideal) (k0_pay2 (F := Ideal) v32) (k0_pay3 (F := Ideal) v0 v2 v4 v7 v10 v20 v22 v30) v40 v42 v57 v59 (ix2 r (0 : Fin 1))
      = edgeOut (fun k => v0 (ix2 r k)) (fun k => v2 (ix2 r k)) (fun k j => v4 (ix2 k j)) (fun k j => v7 (ix2 k j))
          (fun j => v10 (ix2 (0 : Fin 1) j)) (fun k j => v20 (ix2 k j)) (fun j => v22 (ix2 (0 : Fin 1) j))
          (fun k j => v30 (ix2 k j)) (fun j => v32 (ix2 (0 : Fin 1) j)) (fun k => v40 (ix2 k (0 : Fin 1)))
          (v42 (ix2 (0 : Fin 1) (0 : Fin 1))) (v57 (ix2 (0 : Fin 1) (0 : Fin 1))) (v59 (ix2 (0 : Fin 1) (0 : Fin 1))) := by
  unfold k0_pay1 k0_pay2 k0_pay3
  -- every pointwise operation, matrix product and bias broadcast read at row `r`; what is left are the three sums
  -- over the axis of extent one, each of which is its single term: the mean in the centred value, …
  simp only [shapeCast_self, addf_apply, mulf_apply, subf_apply, divf_apply, maximumf_apply, truncf_apply, broadcast_apply,
    mm32_apply, mm1_apply, colsum_apply, broadcastTo_1b_ab_apply, scalar_ofBits_f32, Ideal.ofBits_zero_f32, rsqrt_apply]
  rw [colsum_apply]
  simp only [shapeCast_self, addf_apply, mulf_apply, subf_apply, divf_apply, maximumf_apply, truncf_apply, broadcast_apply,
    mm32_apply, mm1_apply, broadcastTo_1b_ab_apply, scalar_ofBits_f32, Ideal.ofBits_zero_f32, rsqrt_apply]
  -- … the sum of the squared centred value under the root, …
  rw [colsum_apply]
  simp only [shapeCast_self, addf_apply, mulf_apply, subf_apply, divf_apply, maximumf_apply, truncf_apply, broadcast_apply,
    mm32_apply, mm1_apply, broadcastTo_1b_ab_apply, scalar_ofBits_f32, Ideal.ofBits_zero_f32, rsqrt_apply]
  -- … and the mean inside that squared centred value.
  rw [colsum_apply]
  simp only [shapeCast_self, addf_apply, mulf_apply, subf_apply, divf_apply, maximumf_apply, truncf_apply, broadcast_apply,
    mm32_apply, mm1_apply, broadcastTo_1b_ab_apply, scalar_ofBits_f32, Ideal.ofBits_zero_f32, rsqrt_apply]
  rfl

end Cert.KernelIdeal.Row

end
-- ==== Proof.KernelArray.lean ====
/-
  The kernel's output array after the run, as one function of the arrays the region finds.

  The grid has 125 points; point `t` reads rows `25600·t … 25600·t + 25599` of the two gathered
  endpoint arrays and the whole of every weight array, and writes the same rows of the output.
  So what point `t` writes back is the restriction to those rows of one function of the arrays,
  edge by edge, and the 125 row ranges cover the output array.
-/
import proofs.«128229_j45509473468804_1_alg».proof.Proof.Gen.KernelIdeal.Value
import proofs.«128229_j45509473468804_1_alg».proof.Proof.KernelRow

set_option maxRecDepth 16384

noncomputable section

namespace Cert.KernelIdeal.Arr

open Cert.KernelIdeal Cert.KernelIdeal.Gen Idealize.ShloMosaic Idealize.ShloMosaic.TcCoe Idealize.SL.Sem Idealize.ShloMosaic.ValueIdx Cert.EdgeNet
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The output array, edge by edge, from the two gathered endpoint arrays and the weight arrays as the kernel
    receives them (the first matrix in two halves, every bias as one row). -/
def G (A B : S3200000x32.Idx → EReal) (Wa Wb : S32x32.Idx → EReal) (β₁ : S1x32.Idx → EReal) (W₂ : S32x32.Idx → EReal)
    (β₂ : S1x32.Idx → EReal) (W₃ : S32x32.Idx → EReal) (β₃ : S1x32.Idx → EReal) (W₄ : S32x1.Idx → EReal)
    (β₄ γ δ : S1x1.Idx → EReal) : S3200000x1.Idx → EReal := fun i =>
  edgeOut (fun k => A (ix2 (i 0) k)) (fun k => B (ix2 (i 0) k)) (fun k j => Wa (ix2 k j)) (fun k j => Wb (ix2 k j))
    (fun j => β₁ (ix2 (0 : Fin 1) j)) (fun k j => W₂ (ix2 k j)) (fun j => β₂ (ix2 (0 : Fin 1) j)) (fun k j => W₃ (ix2 k j))
    (fun j => β₃ (ix2 (0 : Fin 1) j)) (fun k => W₄ (ix2 k (0 : Fin 1))) (β₄ (ix2 (0 : Fin 1) (0 : Fin 1)))
    (γ (ix2 (0 : Fin 1) (0 : Fin 1))) (δ (ix2 (0 : Fin 1) (0 : Fin 1)))

/-- The index maps over the grid: the two endpoint windows move with the output window along the rows, every weight
    window stays at block zero, and the output's row-block index is the grid point's. -/
theorem idx_facts : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_13.index t (1 : Fin 2) = 0 ∧ win0_13.index t (0 : Fin 2) ≤ 124
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- Every row block of the output is some grid point's. -/
theorem idx_onto : ∀ q : Fin 125, ∃ t : Fin cfg0.N, win0_13.index t = ![q.val, 0] :=
  (by decide +kernel : ∀ q : Fin 125, ∃ t : Fin grid0.N, win0_13.index t = ![q.val, 0])

/-! ## Where a block's entry sits in its array -/

/-- Row `r` of point `t`'s block of the first endpoint array is the row of the output entry point `t` writes at `r`. -/
theorem emb_0 (t : Fin cfg0.N) (r : Fin 25600) (k : Fin 32) :
    ((cfg0.win 0).blk t).view.emb (ix2 r k) = ix2 ((((cfg0.win 13).blk t).view.emb (ix2 r (0 : Fin 1))) 0) k := by
  obtain ⟨e0, e1, -, -, -, e5, -⟩ := idx_facts t
  funext a; apply Fin.ext
  match a with
  | ⟨0, _⟩ => show win0_0.index t (0 : Fin 2) * 25600 + 1 * r.val = win0_13.index t (0 : Fin 2) * 25600 + 1 * r.val; omega
  | ⟨1, _⟩ => show win0_0.index t (1 : Fin 2) * 32 + 1 * k.val = k.val; omega

/-- The same for the second endpoint array. -/
theorem emb_1 (t : Fin cfg0.N) (r : Fin 25600) (k : Fin 32) :
    ((cfg0.win 1).blk t).view.emb (ix2 r k) = ix2 ((((cfg0.win 13).blk t).view.emb (ix2 r (0 : Fin 1))) 0) k := by
  obtain ⟨-, -, e2, e3, -, e5, -⟩ := idx_facts t
  funext a; apply Fin.ext
  match a with
  | ⟨0, _⟩ => show win0_1.index t (0 : Fin 2) * 25600 + 1 * r.val = win0_13.index t (0 : Fin 2) * 25600 + 1 * r.val; omega
  | ⟨1, _⟩ => show win0_1.index t (1 : Fin 2) * 32 + 1 * k.val = k.val; omega

/-! A weight window's one block is its whole array. -/

theorem emb_2 (t : Fin cfg0.N) (y : S32x32.Idx) : ((cfg0.win 2).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_2.index t (0 : Fin 2) * 32 + 1 * (y 0).val = (y 0).val; omega
  | ⟨1, _⟩ => show win0_2.index t (1 : Fin 2) * 32 + 1 * (y 1).val = (y 1).val; omega

theorem emb_3 (t : Fin cfg0.N) (y : S32x32.Idx) : ((cfg0.win 3).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

theorem emb_4 (t : Fin cfg0.N) (y : S1x32.Idx) : ((cfg0.win 4).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_4.index t (0 : Fin 2) * 1 + 1 * (y 0).val = (y 0).val; omega
  | ⟨1, _⟩ => show win0_4.index t (1 : Fin 2) * 32 + 1 * (y 1).val = (y 1).val; omega

theorem emb_5 (t : Fin cfg0.N) (y : S32x32.Idx) : ((cfg0.win 5).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_5.index t (0 : Fin 2) * 32 + 1 * (y 0).val = (y 0).val; omega
  | ⟨1, _⟩ => show win0_5.index t (1 : Fin 2) * 32 + 1 * (y 1).val = (y 1).val; omega

theorem emb_6 (t : Fin cfg0.N) (y : S1x32.Idx) : ((cfg0.win 6).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_6.index t (0 : Fin 2) * 1 + 1 * (y 0).val = (y 0).val; omega
  | ⟨1, _⟩ => show win0_6.index t (1 : Fin 2) * 32 + 1 * (y 1).val = (y 1).val; omega

theorem emb_7 (t : Fin cfg0.N) (y : S32x32.Idx) : ((cfg0.win 7).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_7.index t (0 : Fin 2) * 32 + 1 * (y 0).val = (y 0).val; omega
  | ⟨1, _⟩ => show win0_7.index t (1 : Fin 2) * 32 + 1 * (y 1).val = (y 1).val; omega

theorem emb_8 (t : Fin cfg0.N) (y : S1x32.Idx) : ((cfg0.win 8).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_8.index t (0 : Fin 2) * 1 + 1 * (y 0).val = (y 0).val; omega
  | ⟨1, _⟩ => show win0_8.index t (1 : Fin 2) * 32 + 1 * (y 1).val = (y 1).val; omega

theorem emb_9 (t : Fin cfg0.N) (y : S32x1.Idx) : ((cfg0.win 9).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_9.index t (0 : Fin 2) * 32 + 1 * (y 0).val = (y 0).val; omega
  | ⟨1, _⟩ => show win0_9.index t (1 : Fin 2) * 1 + 1 * (y 1).val = (y 1).val; omega

theorem emb_10 (t : Fin cfg0.N) (y : S1x1.Idx) : ((cfg0.win 10).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_10.index t (0 : Fin 2) * 1 + 1 * (y 0).val = (y 0).val; omega
  | ⟨1, _⟩ => show win0_10.index t (1 : Fin 2) * 1 + 1 * (y 1).val = (y 1).val; omega

theorem emb_11 (t : Fin cfg0.N) (y : S1x1.Idx) : ((cfg0.win 11).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_11.index t (0 : Fin 2) * 1 + 1 * (y 0).val = (y 0).val; omega
  | ⟨1, _⟩ => show win0_11.index t (1 : Fin 2) * 1 + 1 * (y 1).val = (y 1).val; omega

theorem emb_12 (t : Fin cfg0.N) (y : S1x1.Idx) : ((cfg0.win 12).blk t).view.emb y = y := by
  obtain ⟨-, -, -, -, -, -, z2a, z2b, z3a, z3b, z4a, z4b, z5a, z5b, z6a, z6b, z7a, z7b, z8a, z8b, z9a, z9b, z10a, z10b, z11a, z11b, z12a, z12b⟩ := idx_facts t
  funext a; apply Fin.ext
  match a with
  | ⟨0, _⟩ => show win0_12.index t (0 : Fin 2) * 1 + 1 * (y 0).val = (y 0).val; omega
  | ⟨1, _⟩ => show win0_12.index t (1 : Fin 2) * 1 + 1 * (y 1).val = (y 1).val; omega

/-! ## What a point writes back -/

set_option maxHeartbeats 4000000 in
/-- What point `t` writes back is its row block of `G` of the arrays the region finds. -/
theorem flushed_eq (c : Dev nD) (t : Fin cfg0.N) :
    (dats m 0 c).flushed 13 t = ((cfg0.win 13).blk t).view.read (Elt Ideal)
      (G (V m c main_v11) (V m c main_v18) (V m c main_v19) (V m c main_v20) (V m c main_v21) (V m c main_arg4) (V m c main_v22) (V m c main_arg6) (V m c main_v23) (V m c main_arg8) (V m c main_v24) (V m c main_v25) (V m c main_v26)) := by
  rw [Value.flushed13]
  unfold out0_13
  rw [View.canon_unit_zero zero_off]
  simp only [View.ld_unit_zero (S := S25600x32) zero_off, View.ld_unit_zero (S := S32x32) zero_off,
    View.ld_unit_zero (S := S1x32) zero_off, View.ld_unit_zero (S := S32x1) zero_off, View.ld_unit_zero (S := S1x1) zero_off]
  refine funext fun (j : S25600x1.Idx) => ?_
  obtain ⟨r, u, rfl⟩ : ∃ (r : Fin 25600) (u : Fin 1), j = ix2 r u := ⟨j 0, j 1, eq_ix2 j⟩
  obtain rfl : u = 0 := Subsingleton.elim _ _
  show k0_pay1 (F := Ideal) (k0_pay2 (F := Ideal) (iblk m c 8 t)) (k0_pay3 (F := Ideal) (iblk m c 0 t) (iblk m c 1 t) (iblk m c 2 t) (iblk m c 3 t) (iblk m c 4 t) (iblk m c 5 t) (iblk m c 6 t) (iblk m c 7 t)) (iblk m c 9 t) (iblk m c 10 t) (iblk m c 11 t) (iblk m c 12 t) (ix2 r (0 : Fin 1))
    = (G (V m c main_v11) (V m c main_v18) (V m c main_v19) (V m c main_v20) (V m c main_v21) (V m c main_arg4) (V m c main_v22) (V m c main_arg6) (V m c main_v23) (V m c main_arg8) (V m c main_v24) (V m c main_v25) (V m c main_v26)) (((cfg0.win 13).blk t).view.emb (ix2 r (0 : Fin 1)))
  refine (Row.stored_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r).trans ?_
  show _ = edgeOut _ _ _ _ _ _ _ _ _ _ _ _ _
  refine edgeOut_congr ?_ ?_ ?_ ?_ ?_ ?_ ?_ ?_ ?_ ?_ ?_ ?_ ?_
  · exact funext fun k => congrArg (V m c main_v11) (emb_0 t r k)
  · exact funext fun k => congrArg (V m c main_v18) (emb_1 t r k)
  · exact funext fun k => funext fun j => congrArg (V m c main_v19) (emb_2 t (ix2 k j))
  · exact funext fun k => funext fun j => congrArg (V m c main_v20) (emb_3 t (ix2 k j))
  · exact funext fun j => congrArg (V m c main_v21) (emb_4 t (ix2 (0 : Fin 1) j))
  · exact funext fun k => funext fun j => congrArg (V m c main_arg4) (emb_5 t (ix2 k j))
  · exact funext fun j => congrArg (V m c main_v22) (emb_6 t (ix2 (0 : Fin 1) j))
  · exact funext fun k => funext fun j => congrArg (V m c main_arg6) (emb_7 t (ix2 k j))
  · exact funext fun j => congrArg (V m c main_v23) (emb_8 t (ix2 (0 : Fin 1) j))
  · exact funext fun k => congrArg (V m c main_arg8) (emb_9 t (ix2 k (0 : Fin 1)))
  · exact congrArg (V m c main_v24) (emb_10 t (ix2 (0 : Fin 1) (0 : Fin 1)))
  · exact congrArg (V m c main_v25) (emb_11 t (ix2 (0 : Fin 1) (0 : Fin 1)))
  · exact congrArg (V m c main_v26) (emb_12 t (ix2 (0 : Fin 1) (0 : Fin 1)))

/-! ## The 125 row blocks cover the output -/

/-- An index of the output is in point `t`'s block iff its row is in the block's range of rows. -/
theorem mem_blk (t : Fin cfg0.N) (i : S3200000x1.Idx) :
    i ∈ ((cfg0.win 13).blk t).view.set ↔ ∀ a : Fin 2, win0_13.index t a * S25600x1.size a ≤ (i a).val ∧ (i a).val < win0_13.index t a * S25600x1.size a + S25600x1.size a := by
  show i ∈ ((View.whole main_v27).slice (win0_13.rect t)).set ↔ _
  rw [View.set_slice_whole, Rect.mem_set_unit]
  exact Iff.rfl

/-- Row `e` of the output is written by the point whose block index is `e / 25600`. -/
theorem cover (i : S3200000x1.Idx) : ∃ t : Fin cfg0.N, (cfg0.win 13).flush t = true ∧ i ∈ ((cfg0.win 13).blk t).view.set := by
  have hi0 : (i 0).val < 3200000 := (i 0).isLt
  have hi1 : (i 1).val < 1 := (i 1).isLt
  obtain ⟨t, ht⟩ := idx_onto ⟨(i 0).val / 25600, by omega⟩
  have q0 : win0_13.index t (0 : Fin 2) = (i 0).val / 25600 := congrFun ht 0
  have q1 : win0_13.index t (1 : Fin 2) = 0 := congrFun ht 1
  refine ⟨t, flush0_13 t, ?_⟩
  rw [mem_blk]
  intro a
  match a with
  | ⟨0, _⟩ => show win0_13.index t (0 : Fin 2) * 25600 ≤ (i 0).val ∧ (i 0).val < win0_13.index t (0 : Fin 2) * 25600 + 25600; omega
  | ⟨1, _⟩ => show win0_13.index t (1 : Fin 2) * 1 ≤ (i 1).val ∧ (i 1).val < win0_13.index t (1 : Fin 2) * 1 + 1; omega

/-- The output array after the run is `G` of the arrays the region finds. -/
theorem final (c : Dev nD) : (dats m 0 c).arrAt 13 cfg0.N = (G (V m c main_v11) (V m c main_v18) (V m c main_v19) (V m c main_v20) (V m c main_v21) (V m c main_arg4) (V m c main_v22) (V m c main_arg6) (V m c main_v23) (V m c main_arg8) (V m c main_v24) (V m c main_v25) (V m c main_v26)) :=
  (dats m 0 c).arrAt_eq_of_cover 13 (G (V m c main_v11) (V m c main_v18) (V m c main_v19) (V m c main_v20) (V m c main_v21) (V m c main_arg4) (V m c main_v22) (V m c main_arg6) (V m c main_v23) (V m c main_arg8) (V m c main_v24) (V m c main_v25) (V m c main_v26)) (fun t _ => flushed_eq m c t) cover

end Cert.KernelIdeal.Arr

end
-- ==== Proof.KernelInputs.lean ====
/-
  The arrays the kernel's region finds, in terms of the program's arguments.

  Before the region the program slices the 64 × 32 first matrix into its upper and lower 32 rows and
  reshapes every bias and the two normalisation parameters into one-row arrays; the other matrices
  are passed as they are.
-/
import proofs.«128229_j45509473468804_1_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Inputs

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The upper half of the first matrix: rows 0 … 31. -/
theorem upper_half (c : Dev nD) (k j : Fin 32) :
    (V m c main_v19 : S32x32.Idx → EReal) (ix2 k j) = ((m ((c : Thread nD τ).loc main_arg2)) : S64x32.Idx → EReal) (ix2 (⟨k.val, by omega⟩ : Fin 64) j) := by
  have e : (V m c main_v19 : S32x32.Idx → EReal) = extractStridedSlice S32x32 ![0, 0] ((m ((c : Thread nD τ).loc main_arg2)) : S64x32.Idx → EReal) slices_S64x32_S32x32_0_0 := by
    dsimp only [V, hostOps0]; after_results
  rw [e]
  refine extractStridedSlice_apply ![0, 0] _ slices_S64x32_S32x32_0_0 (ix2 k j) (ix2 (⟨k.val, by omega⟩ : Fin 64) j) (fun a => ?_)
  match a with
  | ⟨0, _⟩ => show k.val = 0 + k.val; omega
  | ⟨1, _⟩ => show j.val = 0 + j.val; omega

/-- The lower half of the first matrix: rows 32 … 63. -/
theorem lower_half (c : Dev nD) (k j : Fin 32) :
    (V m c main_v20 : S32x32.Idx → EReal) (ix2 k j) = ((m ((c : Thread nD τ).loc main_arg2)) : S64x32.Idx → EReal) (ix2 (⟨32 + k.val, by omega⟩ : Fin 64) j) := by
  have e : (V m c main_v20 : S32x32.Idx → EReal) = extractStridedSlice S32x32 ![32, 0] ((m ((c : Thread nD τ).loc main_arg2)) : S64x32.Idx → EReal) slices_S64x32_S32x32_32_0 := by
    dsimp only [V, hostOps0]; after_results
  rw [e]
  refine extractStridedSlice_apply ![32, 0] _ slices_S64x32_S32x32_32_0 (ix2 k j) (ix2 (⟨32 + k.val, by omega⟩ : Fin 64) j) (fun a => ?_)
  match a with
  | ⟨0, _⟩ => show 32 + k.val = 32 + k.val; rfl
  | ⟨1, _⟩ => show j.val = 0 + j.val; omega

/-- The first bias as one row. -/
theorem bias_1 (c : Dev nD) (j : Fin 32) :
    (V m c main_v21 : S1x32.Idx → EReal) (ix2 (0 : Fin 1) j) = ((m ((c : Thread nD τ).loc main_arg3)) : S32.Idx → EReal) (ix1 j) := by
  have e : (V m c main_v21 : S1x32.Idx → EReal) = shapeCast S1x32 ((m ((c : Thread nD τ).loc main_arg3)) : S32.Idx → EReal) shapeCasts_S32_S1x32 := by
    dsimp only [V, hostOps0]; after_results; rfl
  rw [e]
  exact shapeCast_a_1a_apply _ shapeCasts_S32_S1x32 (0 : Fin 1) j

/-- The second bias as one row. -/
theorem bias_2 (c : Dev nD) (j : Fin 32) :
    (V m c main_v22 : S1x32.Idx → EReal) (ix2 (0 : Fin 1) j) = ((m ((c : Thread nD τ).loc main_arg5)) : S32.Idx → EReal) (ix1 j) := by
  have e : (V m c main_v22 : S1x32.Idx → EReal) = shapeCast S1x32 ((m ((c : Thread nD τ).loc main_arg5)) : S32.Idx → EReal) shapeCasts_S32_S1x32 := by
    dsimp only [V, hostOps0]; after_results; rfl
  rw [e]
  exact shapeCast_a_1a_apply _ shapeCasts_S32_S1x32 (0 : Fin 1) j

/-- The third bias as one row. -/
theorem bias_3 (c : Dev nD) (j : Fin 32) :
    (V m c main_v23 : S1x32.Idx → EReal) (ix2 (0 : Fin 1) j) = ((m ((c : Thread nD τ).loc main_arg7)) : S32.Idx → EReal) (ix1 j) := by
  have e : (V m c main_v23 : S1x32.Idx → EReal) = shapeCast S1x32 ((m ((c : Thread nD τ).loc main_arg7)) : S32.Idx → EReal) shapeCasts_S32_S1x32 := by
    dsimp only [V, hostOps0]; after_results; rfl
  rw [e]
  exact shapeCast_a_1a_apply _ shapeCasts_S32_S1x32 (0 : Fin 1) j

/-- The last bias as a one-entry array. -/
theorem bias_4 (c : Dev nD) :
    (V m c main_v24 : S1x1.Idx → EReal) (ix2 (0 : Fin 1) (0 : Fin 1)) = ((m ((c : Thread nD τ).loc main_arg9)) : S1.Idx → EReal) (ix1 (0 : Fin 1)) := by
  have e : (V m c main_v24 : S1x1.Idx → EReal) = shapeCast S1x1 ((m ((c : Thread nD τ).loc main_arg9)) : S1.Idx → EReal) shapeCasts_S1_S1x1 := by
    dsimp only [V, hostOps0]; after_results; rfl
  rw [e]
  exact shapeCast_a_1a_apply _ shapeCasts_S1_S1x1 (0 : Fin 1) (0 : Fin 1)

/-- The normalisation's scale as a one-entry array. -/
theorem scale (c : Dev nD) :
    (V m c main_v25 : S1x1.Idx → EReal) (ix2 (0 : Fin 1) (0 : Fin 1)) = ((m ((c : Thread nD τ).loc main_arg10)) : S1.Idx → EReal) (ix1 (0 : Fin 1)) := by
  have e : (V m c main_v25 : S1x1.Idx → EReal) = shapeCast S1x1 ((m ((c : Thread nD τ).loc main_arg10)) : S1.Idx → EReal) shapeCasts_S1_S1x1 := by
    dsimp only [V, hostOps0]; after_results; rfl
  rw [e]
  exact shapeCast_a_1a_apply _ shapeCasts_S1_S1x1 (0 : Fin 1) (0 : Fin 1)

/-- The normalisation's shift as a one-entry array. -/
theorem shift (c : Dev nD) :
    (V m c main_v26 : S1x1.Idx → EReal) (ix2 (0 : Fin 1) (0 : Fin 1)) = ((m ((c : Thread nD τ).loc main_arg11)) : S1.Idx → EReal) (ix1 (0 : Fin 1)) := by
  have e : (V m c main_v26 : S1x1.Idx → EReal) = shapeCast S1x1 ((m ((c : Thread nD τ).loc main_arg11)) : S1.Idx → EReal) shapeCasts_S1_S1x1 := by
    dsimp only [V, hostOps0]; after_results; rfl
  rw [e]
  exact shapeCast_a_1a_apply _ shapeCasts_S1_S1x1 (0 : Fin 1) (0 : Fin 1)

end Cert.KernelIdeal.Inputs

end
-- ==== Proof.RefRow.lean ====
/-
  The reference's result, read at one edge.

  The reference joins the two gathered endpoint rows into one row of 64 entries and multiplies it
  with the whole 64 × 32 matrix; a sum over 64 indices is the sum over the first 32 plus the sum
  over the last 32, the first 32 entries of the joined row being the first endpoint's and the last
  32 the second's.  Every later stage is read one operation at a time: a matrix product as a sum
  over its 32 contraction coordinates, a bias broadcast as the bias' entry, a sum over the axis of
  extent one as its single term on top of the zero it starts from.
-/
import proofs.«128229_j45509473468804_1_alg».proof.Proof.Gen.ReferenceIdeal.Read
import proofs.«128229_j45509473468804_1_alg».proof.Proof.EdgeNet
import Idealize.ShloMosaic.Lib.ValueIdx
import Idealize.ShloMosaic.Lib.Pipeline.Value
import Idealize.ShloMosaic.PureOps.Ideal.Laws

noncomputable section

open scoped BigOperators

namespace Cert.ReferenceIdeal.RefRow

open Cert.ReferenceIdeal Cert.ReferenceIdeal.Gen Cert.ReferenceIdeal.Read Idealize.ShloMosaic Idealize.ShloMosaic.ValueIdx Cert.EdgeNet

variable (x0 : (⟨S100000x32, .f32⟩ : BufTy).Contents (Elt Ideal)) (x1 : (⟨S2x3200000, .i32⟩ : BufTy).Contents (Elt Ideal))
  (x2 : (⟨S64x32, .f32⟩ : BufTy).Contents (Elt Ideal)) (x3 : (⟨S32, .f32⟩ : BufTy).Contents (Elt Ideal))
  (x4 : (⟨S32x32, .f32⟩ : BufTy).Contents (Elt Ideal)) (x5 : (⟨S32, .f32⟩ : BufTy).Contents (Elt Ideal))
  (x6 : (⟨S32x32, .f32⟩ : BufTy).Contents (Elt Ideal)) (x7 : (⟨S32, .f32⟩ : BufTy).Contents (Elt Ideal))
  (x8 : (⟨S32x1, .f32⟩ : BufTy).Contents (Elt Ideal)) (x9 x10 x11 : (⟨S1, .f32⟩ : BufTy).Contents (Elt Ideal))

/-! ## The joined row -/

/-- The first 32 entries of an edge's joined row are the first endpoint's row. -/
theorem joined_left (e : Fin 3200000) (k : Fin 32) :
    val_main_v18 (F := Ideal) x0 x1 (ix2 e (⟨k.val, by omega⟩ : Fin 64)) = val_main_v8 (F := Ideal) x0 x1 (ix2 e k) := by
  unfold val_main_v18
  generalize val_main_v8 (F := Ideal) x0 x1 = A
  generalize val_main_v17 (F := Ideal) x0 x1 = B
  refine concatenate_pair_apply_left (t := S3200000x64) (s₁ := S3200000x32) (s₂ := S3200000x32) (1 : Fin 2) A B concatenates_S3200000x32_S3200000x32_S3200000x64_d1 _ rfl (ix2 e k) (fun b => ?_)
  match b with
  | ⟨0, _⟩ => rfl
  | ⟨1, _⟩ => rfl

/-- The last 32 entries of an edge's joined row are the second endpoint's row. -/
theorem joined_right (e : Fin 3200000) (k : Fin 32) :
    val_main_v18 (F := Ideal) x0 x1 (ix2 e (⟨32 + k.val, by omega⟩ : Fin 64)) = val_main_v17 (F := Ideal) x0 x1 (ix2 e k) := by
  unfold val_main_v18
  generalize val_main_v8 (F := Ideal) x0 x1 = A
  generalize val_main_v17 (F := Ideal) x0 x1 = B
  refine concatenate_pair_apply_right (t := S3200000x64) (s₁ := S3200000x32) (s₂ := S3200000x32) (1 : Fin 2) A B concatenates_S3200000x32_S3200000x32_S3200000x64_d1 _ rfl rfl (ix2 e k) (fun b hb => ?_) ?_
  · match b with
    | ⟨0, _⟩ => rfl
    | ⟨1, _⟩ => exact absurd rfl hb
  · show k.val + 32 = 32 + k.val
    omega

/-! ## The layers -/

/-- The first hidden layer at an edge. -/
theorem hid1_ref (e : Fin 3200000) (j : Fin 32) :
    val_main_v23 (F := Ideal) x0 x1 x2 x3 (ix2 e j)
      = hid1 (fun k => val_main_v8 (F := Ideal) x0 x1 (ix2 e k)) (fun k => val_main_v17 (F := Ideal) x0 x1 (ix2 e k))
          (fun k j => x2 (ix2 (⟨k.val, by omega⟩ : Fin 64) j)) (fun k j => x2 (ix2 (⟨32 + k.val, by omega⟩ : Fin 64) j))
          (fun j => x3 (ix1 j)) j := by
  rw [val_main_v23_apply, val_main_v22_apply, val_main_v19_apply, val_main_v21_apply, val_main_v20_apply,
    val_main_call0_v0_apply, val_main_call0_cst_apply, sum_fin64_halves]
  have il : ∀ k : Fin 64, lidx_main_v19 (ix2 e j) k = ix2 e k := fun k => funext fun a => by
    match a with
    | ⟨0, _⟩ => rfl
    | ⟨1, _⟩ => rfl
  have ir : ∀ k : Fin 64, ridx_main_v19 (ix2 e j) k = ix2 k j := fun k => funext fun a => by
    match a with
    | ⟨0, _⟩ => rfl
    | ⟨1, _⟩ => rfl
  have ib : idx_main_v20 (idx_main_v21 (ix2 e j)) = ix1 j := funext fun a => by
    match a with
    | ⟨0, _⟩ => rfl
  rw [ib]
  simp only [il, ir, joined_left, joined_right, Ideal.maximumf_def, Ideal.addf_def, Ideal.ofBits_def, Ideal.ofBits_zero_f32, hid1]

/-- The second hidden layer at an edge, over the first. -/
theorem hid2_ref (e : Fin 3200000) (j : Fin 32) :
    val_main_v28 (F := Ideal) x0 x1 x2 x3 x4 x5 (ix2 e j)
      = hidN (fun k => val_main_v23 (F := Ideal) x0 x1 x2 x3 (ix2 e k)) (fun k j => x4 (ix2 k j)) (fun j => x5 (ix1 j)) j := by
  rw [val_main_v28_apply, val_main_v27_apply, val_main_v24_apply, val_main_v26_apply, val_main_v25_apply,
    val_main_call1_v0_apply, val_main_call1_cst_apply]
  have il : ∀ k : Fin 32, lidx_main_v24 (ix2 e j) k = ix2 e k := fun k => funext fun a => by
    match a with
    | ⟨0, _⟩ => rfl
    | ⟨1, _⟩ => rfl
  have ir : ∀ k : Fin 32, ridx_main_v24 (ix2 e j) k = ix2 k j := fun k => funext fun a => by
    match a with
    | ⟨0, _⟩ => rfl
    | ⟨1, _⟩ => rfl
  have ib : idx_main_v25 (idx_main_v26 (ix2 e j)) = ix1 j := funext fun a => by
    match a with
    | ⟨0, _⟩ => rfl
  rw [ib]
  simp only [il, ir, Ideal.maximumf_def, Ideal.addf_def, Ideal.ofBits_def, Ideal.ofBits_zero_f32, hidN]

/-- The third hidden layer at an edge, over the second. -/
theorem hid3_ref (e : Fin 3200000) (j : Fin 32) :
    val_main_v33 (F := Ideal) x0 x1 x2 x3 x4 x5 x6 x7 (ix2 e j)
      = hidN (fun k => val_main_v28 (F := Ideal) x0 x1 x2 x3 x4 x5 (ix2 e k)) (fun k j => x6 (ix2 k j)) (fun j => x7 (ix1 j)) j := by
  rw [val_main_v33_apply, val_main_v32_apply, val_main_v29_apply, val_main_v31_apply, val_main_v30_apply,
    val_main_call2_v0_apply, val_main_call2_cst_apply]
  have il : ∀ k : Fin 32, lidx_main_v29 (ix2 e j) k = ix2 e k := fun k => funext fun a => by
    match a with
    | ⟨0, _⟩ => rfl
    | ⟨1, _⟩ => rfl
  have ir : ∀ k : Fin 32, ridx_main_v29 (ix2 e j) k = ix2 k j := fun k => funext fun a => by
    match a with
    | ⟨0, _⟩ => rfl
    | ⟨1, _⟩ => rfl
  have ib : idx_main_v30 (idx_main_v31 (ix2 e j)) = ix1 j := funext fun a => by
    match a with
    | ⟨0, _⟩ => rfl
  rw [ib]
  simp only [il, ir, Ideal.maximumf_def, Ideal.addf_def, Ideal.ofBits_def, Ideal.ofBits_zero_f32, hidN]

/-- The last, linear layer at an edge, over the third hidden layer. -/
theorem lin4_ref (e : Fin 3200000) :
    val_main_v37 (F := Ideal) x0 x1 x2 x3 x4 x5 x6 x7 x8 x9 (ix2 e (0 : Fin 1))
      = lin4 (fun k => val_main_v33 (F := Ideal) x0 x1 x2 x3 x4 x5 x6 x7 (ix2 e k)) (fun k => x8 (ix2 k (0 : Fin 1))) (x9 (ix1 (0 : Fin 1))) := by
  rw [val_main_v37_apply, val_main_v34_apply, val_main_v36_apply, val_main_v35_apply]
  have il : ∀ k : Fin 32, lidx_main_v34 (ix2 e (0 : Fin 1)) k = ix2 e k := fun k => funext fun a => by
    match a with
    | ⟨0, _⟩ => rfl
    | ⟨1, _⟩ => rfl
  have ir : ∀ k : Fin 32, ridx_main_v34 (ix2 e (0 : Fin 1)) k = ix2 k (0 : Fin 1) := fun k => funext fun a => by
    match a with
    | ⟨0, _⟩ => rfl
    | ⟨1, _⟩ => rfl
  have ib : idx_main_v35 (idx_main_v36 (ix2 e (0 : Fin 1))) = ix1 (0 : Fin 1) := funext fun a => by
    match a with
    | ⟨0, _⟩ => rfl
  rw [ib]
  simp only [il, ir, Ideal.addf_def, lin4]

/-! ## The normalisation -/

/-- The normalised output at an edge, over the linear layer's value there. -/
theorem lnorm_ref (e : Fin 3200000) :
    val_main_v58 (F := Ideal) x0 x1 x2 x3 x4 x5 x6 x7 x8 x9 x10 x11 (ix2 e (0 : Fin 1))
      = lnorm (val_main_v37 (F := Ideal) x0 x1 x2 x3 x4 x5 x6 x7 x8 x9 (ix2 e (0 : Fin 1))) (x10 (ix1 (0 : Fin 1))) (x11 (ix1 (0 : Fin 1))) := by
  have i1 : idx_main_v38 (idx_main_v39 (ix2 e (0 : Fin 1))) (0 : Fin 1) = ix2 e (0 : Fin 1) := funext fun a => by
    match a with
    | ⟨0, _⟩ => rfl
    | ⟨1, _⟩ => rfl
  have i2 : idx_main_v44 (idx_main_v45 (ix2 e (0 : Fin 1))) (0 : Fin 1) = ix2 e (0 : Fin 1) := funext fun a => by
    match a with
    | ⟨0, _⟩ => rfl
    | ⟨1, _⟩ => rfl
  have i3 : idx_main_v53 (idx_main_v54 (ix2 e (0 : Fin 1))) = ix1 (0 : Fin 1) := funext fun a => by
    match a with
    | ⟨0, _⟩ => rfl
  have i4 : idx_main_v56 (idx_main_v57 (ix2 e (0 : Fin 1))) = ix1 (0 : Fin 1) := funext fun a => by
    match a with
    | ⟨0, _⟩ => rfl
  simp only [val_main_v58_apply, val_main_v55_apply, val_main_v57_apply, val_main_v56_apply, val_main_v52_apply, val_main_v54_apply,
    val_main_v53_apply, val_main_v48_apply, val_main_v51_apply, val_main_v50_apply, val_main_v47_apply, val_main_v49_apply,
    val_main_cst_6_apply, val_main_v45_apply, val_main_v46_apply, val_main_cst_5_apply, val_main_v44_apply, val_main_cst_4_apply,
    val_main_v43_apply, val_main_v42_apply, val_main_v41_apply, val_main_v39_apply, val_main_v40_apply, val_main_cst_3_apply,
    val_main_v38_apply, val_main_cst_apply, Fin.sum_univ_one, i1, i2, i3, i4,
    Ideal.addf_def, Ideal.subf_def, Ideal.mulf_def, Ideal.hostDivf_def, Ideal.hostUnary_rsqrt_def, Ideal.ofBits_def, Ideal.ofBits_zero_f32,
    zero_add, lnorm]

/-! ## The whole result at an index -/

/-- The reference's result at an index is the edge function of the two gathered endpoint rows of that edge. -/
theorem result_at (i : S3200000x1.Idx) :
    val_main_v58 (F := Ideal) x0 x1 x2 x3 x4 x5 x6 x7 x8 x9 x10 x11 i
      = edgeOut (fun k => val_main_v8 (F := Ideal) x0 x1 (ix2 (i 0) k)) (fun k => val_main_v17 (F := Ideal) x0 x1 (ix2 (i 0) k))
          (fun k j => x2 (ix2 (⟨k.val, by omega⟩ : Fin 64) j)) (fun k j => x2 (ix2 (⟨32 + k.val, by omega⟩ : Fin 64) j))
          (fun j => x3 (ix1 j)) (fun k j => x4 (ix2 k j)) (fun j => x5 (ix1 j)) (fun k j => x6 (ix2 k j)) (fun j => x7 (ix1 j))
          (fun k => x8 (ix2 k (0 : Fin 1))) (x9 (ix1 (0 : Fin 1))) (x10 (ix1 (0 : Fin 1))) (x11 (ix1 (0 : Fin 1))) := by
  obtain ⟨e, u, rfl⟩ : ∃ (e : Fin 3200000) (u : Fin 1), i = ix2 e u := ⟨i 0, i 1, eq_ix2 i⟩
  obtain rfl : u = 0 := Subsingleton.elim _ _
  rw [lnorm_ref, lin4_ref]
  simp only [hid3_ref, hid2_ref, hid1_ref]
  rfl

end Cert.ReferenceIdeal.RefRow

end
-- ==== Proof.lean ====
/-
  The edge perceptron with layer normalisation: the tiled kernel against the plain reference.

  Both programs gather, for each of the 3 200 000 edges, the feature rows of the edge's two endpoints
  (the same gather of the same node array by the same index columns; the kernel's narrowing of the
  node array to a shorter float format is the identity on the extended reals), push them through
  four dense layers with a clamp at zero after the first three, and normalise the single output
  over its axis of extent one.  The kernel does this 25 600 edges at a time, with the first matrix
  split into the halves that meet the two endpoint rows; the reference joins the two rows and uses
  the whole matrix.  Edge by edge the two are one function of the arguments: a sum over 64 indices
  is the sum over the first 32 plus the sum over the last 32, and everything else is the same
  operation on the same values.  No step needs the inputs to be finite.

  The three frames are the generated ones (the reference's is its generated run with the result
  dropped); nothing was rewritten when the kernel was idealized, so that conjunct is trivial.
-/
import proofs.«128229_j45509473468804_1_alg».proof.Defs
import proofs.«128229_j45509473468804_1_alg».proof.Proof.Gen.Kernel
import proofs.«128229_j45509473468804_1_alg».proof.Proof.Gen.Kernel.Skeleton
import proofs.«128229_j45509473468804_1_alg».proof.Proof.Gen.Kernel.Launch
import proofs.«128229_j45509473468804_1_alg».proof.Proof.Gen.Kernel.Points
import proofs.«128229_j45509473468804_1_alg».proof.Proof.Gen.Kernel.Frame
import proofs.«128229_j45509473468804_1_alg».proof.Proof.Gen.KernelIdeal
import proofs.«128229_j45509473468804_1_alg».proof.Proof.Gen.KernelIdeal.Skeleton
import proofs.«128229_j45509473468804_1_alg».proof.Proof.Gen.KernelIdeal.Launch
import proofs.«128229_j45509473468804_1_alg».proof.Proof.Gen.KernelIdeal.Points
import proofs.«128229_j45509473468804_1_alg».proof.Proof.Gen.KernelIdeal.Frame
import proofs.«128229_j45509473468804_1_alg».proof.Proof.Gen.ReferenceIdeal
import proofs.«128229_j45509473468804_1_alg».proof.Proof.Gen.Pre_finite_inputs
import proofs.«128229_j45509473468804_1_alg».proof.Proof.Gen.KernelIdeal.Value
import proofs.«128229_j45509473468804_1_alg».proof.Proof.Gen.ReferenceIdeal.Run
import proofs.«128229_j45509473468804_1_alg».proof.Proof.Gen.ReferenceIdeal.Read
import proofs.«128229_j45509473468804_1_alg».proof.Proof.KernelArray
import proofs.«128229_j45509473468804_1_alg».proof.Proof.KernelInputs
import proofs.«128229_j45509473468804_1_alg».proof.Proof.RefRow
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.ValueIdx Cert.EdgeNet

section Bridge

variable (m : (ℓ : Loc Cert.KernelIdeal.nD Cert.KernelIdeal.τ Cert.KernelIdeal.sig) → Buf (Elt Ideal) ℓ)

/-- The first endpoint array the kernel's region finds is the reference's first gathered array of the same arguments:
    the same gather by the same index column, the narrowing of the node array being the identity. -/
theorem gathered_first (c : Dev Cert.KernelIdeal.nD) :
    ((Cert.KernelIdeal.Gen.V m c Cert.KernelIdeal.main_v11) : Cert.KernelIdeal.S3200000x32.Idx → EReal)
      = Cert.ReferenceIdeal.Read.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  dsimp only [Cert.KernelIdeal.Gen.V, Cert.KernelIdeal.Gen.hostOps0]
  after_results
  rfl

set_option maxHeartbeats 2000000 in
/-- The same for the second endpoint. -/
theorem gathered_second (c : Dev Cert.KernelIdeal.nD) :
    ((Cert.KernelIdeal.Gen.V m c Cert.KernelIdeal.main_v18) : Cert.KernelIdeal.S3200000x32.Idx → EReal)
      = Cert.ReferenceIdeal.Read.val_main_v17 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  dsimp only [Cert.KernelIdeal.Gen.V, Cert.KernelIdeal.Gen.hostOps0]
  after_results
  rfl

/-- The reference's result of the kernel's arguments is the kernel's output function of the arrays its region finds. -/
theorem values_agree (c : Dev Cert.KernelIdeal.nD) :
    Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = (Cert.KernelIdeal.Arr.G (Cert.KernelIdeal.Gen.V m c Cert.KernelIdeal.main_v11) (Cert.KernelIdeal.Gen.V m c Cert.KernelIdeal.main_v18) (Cert.KernelIdeal.Gen.V m c Cert.KernelIdeal.main_v19) (Cert.KernelIdeal.Gen.V m c Cert.KernelIdeal.main_v20) (Cert.KernelIdeal.Gen.V m c Cert.KernelIdeal.main_v21) (Cert.KernelIdeal.Gen.V m c Cert.KernelIdeal.main_arg4) (Cert.KernelIdeal.Gen.V m c Cert.KernelIdeal.main_v22) (Cert.KernelIdeal.Gen.V m c Cert.KernelIdeal.main_arg6) (Cert.KernelIdeal.Gen.V m c Cert.KernelIdeal.main_v23) (Cert.KernelIdeal.Gen.V m c Cert.KernelIdeal.main_arg8) (Cert.KernelIdeal.Gen.V m c Cert.KernelIdeal.main_v24) (Cert.KernelIdeal.Gen.V m c Cert.KernelIdeal.main_v25) (Cert.KernelIdeal.Gen.V m c Cert.KernelIdeal.main_v26)) := by
  funext i
  rw [Cert.ReferenceIdeal.RefRow.result_at]
  show _ = edgeOut _ _ _ _ _ _ _ _ _ _ _ _ _
  refine edgeOut_congr ?_ ?_ ?_ ?_ ?_ ?_ ?_ ?_ ?_ ?_ ?_ ?_ ?_
  · exact funext fun k => (congrFun (gathered_first m c) (ix2 (i 0) k)).symm
  · exact funext fun k => (congrFun (gathered_second m c) (ix2 (i 0) k)).symm
  · exact funext fun k => funext fun j => (Cert.KernelIdeal.Inputs.upper_half m c k j).symm
  · exact funext fun k => funext fun j => (Cert.KernelIdeal.Inputs.lower_half m c k j).symm
  · exact funext fun j => (Cert.KernelIdeal.Inputs.bias_1 m c j).symm
  · exact funext fun k => funext fun j => (congrFun (Cert.KernelIdeal.Gen.V_main_arg4 m c) (ix2 k j)).symm
  · exact funext fun j => (Cert.KernelIdeal.Inputs.bias_2 m c j).symm
  · exact funext fun k => funext fun j => (congrFun (Cert.KernelIdeal.Gen.V_main_arg6 m c) (ix2 k j)).symm
  · exact funext fun j => (Cert.KernelIdeal.Inputs.bias_3 m c j).symm
  · exact funext fun k => (congrFun (Cert.KernelIdeal.Gen.V_main_arg8 m c) (ix2 k (0 : Fin 1))).symm
  · exact (Cert.KernelIdeal.Inputs.bias_4 m c).symm
  · exact (Cert.KernelIdeal.Inputs.scale m c).symm
  · exact (Cert.KernelIdeal.Inputs.shift m c).symm

end Bridge

/-! ## The claims -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the output array at the kernel's edge function of the arrays its region finds. -/
theorem algebraic : Cert.algebraic_KernelIdeal_ReferenceIdeal := by
  intro m ρ m' ρ' _ hagree
  refine ⟨fun c => (Cert.KernelIdeal.Arr.G (Cert.KernelIdeal.Gen.V m c Cert.KernelIdeal.main_v11) (Cert.KernelIdeal.Gen.V m c Cert.KernelIdeal.main_v18) (Cert.KernelIdeal.Gen.V m c Cert.KernelIdeal.main_v19) (Cert.KernelIdeal.Gen.V m c Cert.KernelIdeal.main_v20) (Cert.KernelIdeal.Gen.V m c Cert.KernelIdeal.main_v21) (Cert.KernelIdeal.Gen.V m c Cert.KernelIdeal.main_arg4) (Cert.KernelIdeal.Gen.V m c Cert.KernelIdeal.main_v22) (Cert.KernelIdeal.Gen.V m c Cert.KernelIdeal.main_arg6) (Cert.KernelIdeal.Gen.V m c Cert.KernelIdeal.main_v23) (Cert.KernelIdeal.Gen.V m c Cert.KernelIdeal.main_arg8) (Cert.KernelIdeal.Gen.V m c Cert.KernelIdeal.main_v24) (Cert.KernelIdeal.Gen.V m c Cert.KernelIdeal.main_v25) (Cert.KernelIdeal.Gen.V m c Cert.KernelIdeal.main_v26)), ?_, ?_⟩
  · exact (θ_run Cert.KernelIdeal.defs _ _).mono
      (fun r h c => ⟨(h c).1.trans (Cert.KernelIdeal.Arr.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v58_eq, a0, a1, a2, a3, a4, a5, a6, a7, a8, a9, a10, a11]
    exact values_agree m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
